-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2048x256 : Shape := ⟨2, ![2048, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S8192x256 .f32) (main_arg1 : FVec F S2048x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S8192x256 : Shape := ⟨2, ![8192, 256]⟩
abbrev S2048x256 : Shape := ⟨2, ![2048, 256]⟩
abbrev S8192x2048 : Shape := ⟨2, ![8192, 2048]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S256x2048 : Shape := ⟨2, ![256, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S1024x2048, .f32⟩
  | .local _ .vmem, ⟨4, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  reduces_S1024x256_S1024 : S1024x256.Reduces [1] S1024
  shapeCasts_S1024_S1024x1 : S1024.ShapeCasts S1024x1
  reduces_S2048x256_S2048 : S2048x256.Reduces [1] S2048
  bitsLt_bf16_f32 : FTy.bits .bf16 < FTy.bits .f32
  transposes_S2048x256_p1_0_S256x2048 : S2048x256.Transposes [1, 0] S256x2048
  shapeCasts_S2048_S1x2048 : S2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .f32 = 32 ∨ (Rect.block (s := S8192x2048) S1024x2048.size (cc0_transform_2 i) (hinb0_2 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S2048x256 : Shape := ⟨2, ![2048, 256]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S8192x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S2048x256_S2048_d1 : S2048x256.ReducesTo [1] S2048
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x256_S2048x256_S8192x2048_1_1_0_0_n_n_wf : DotDims.WF S8192x256 S2048x256 S8192x2048 [1] [1] [0] [0] [] []

variable [Facts₀]

def dot_S8192x256_S2048x256_S8192x2048_1_1_0_0_n_n : DotDims S8192x256 S2048x256 S8192x2048 where
  lhsContracting := [1]
  rhsContracting := [1]
  lhsNonContracting := [0]
  rhsNonContracting := [0]
  lhsBatch := []
  rhsBatch := []
  wf := dot_S8192x256_S2048x256_S8192x2048_1_1_0_0_n_n_wf

class Facts : Prop extends Facts₀ where

variable [Facts]
-- ==== Proof.Spec.lean ====
/-
  The radial-basis layer as one function of its two argument arrays.

  For points `x : [B, d]` and landmarks `l : [L, d]`, entry `(b, j)` of the result is
  `exp (-(1/256) · max (‖x_b‖² + ‖l_j‖² - 2 · ⟨x_b, l_j⟩, 0))` on the extended reals, where `‖a_r‖²` is the sum over
  the `d` columns of `a (r, k) · a (r, k)` and `⟨x_b, l_j⟩` the sum of `x (b, k) · l (j, k)`. The two constants that are
  not zero are kept as the words both programs print (`0xBB800000` is `-2⁻⁸`, `0x40000000` is `2`); the one fact about
  words used anywhere is that the negation of `2⁻⁸` (`0x3B800000`) is the word `0xBB800000`.
-/
import Idealize.ShloMosaic.Lib.ValueIdx
import Idealize.ShloMosaic.PureOps.Ideal.Laws

noncomputable section

namespace Cert.Rbf

open Idealize.ShloMosaic Idealize.ShloMosaic.ValueIdx

/-- The squared length of row `r` of a matrix with `d` columns. -/
def rowSq {n d : Nat} (a : (⟨2, ![n, d]⟩ : Shape).Idx → EReal) (r : Fin n) : EReal :=
  ∑ k : Fin d, a (ix2 r k) * a (ix2 r k)

/-- The inner product of row `r` of one matrix with row `j` of another, both with `d` columns. -/
def rowDot {n n' d : Nat} (a : (⟨2, ![n, d]⟩ : Shape).Idx → EReal) (b : (⟨2, ![n', d]⟩ : Shape).Idx → EReal)
    (r : Fin n) (j : Fin n') : EReal :=
  ∑ k : Fin d, a (ix2 r k) * b (ix2 j k)

/-- One entry of the layer from the two squared lengths and the inner product: the squared distance
    `sx + sl - 2 · cr`, clipped below at zero, scaled by `-2⁻⁸`, exponentiated. -/
def entry (sx sl cr : EReal) : EReal :=
  Ideal.exp (Ideal.ofBits .f32 0xBB800000#32 * max (sx + sl - Ideal.ofBits .f32 0x40000000#32 * cr) 0)

/-- The layer: entry `(b, j)` from row `b` of the points and row `j` of the landmarks. -/
def rbf (x : (⟨2, ![8192, 256]⟩ : Shape).Idx → EReal) (l : (⟨2, ![2048, 256]⟩ : Shape).Idx → EReal) :
    (⟨2, ![8192, 2048]⟩ : Shape).Idx → EReal :=
  fun i => entry (rowSq x (i 0)) (rowSq l (i 1)) (rowDot x l (i 0) (i 1))

/-- The layer at an index given by its coordinates. -/
theorem rbf_ix2 (x : (⟨2, ![8192, 256]⟩ : Shape).Idx → EReal) (l : (⟨2, ![2048, 256]⟩ : Shape).Idx → EReal)
    (b : Fin 8192) (j : Fin 2048) : rbf x l (ix2 b j) = entry (rowSq x b) (rowSq l j) (rowDot x l b j) := rfl

/-- The word `0x3B800000` denotes `2⁻⁸`. -/
theorem word_gamma : Ideal.ofBits .f32 0x3B800000#32 = ((1 / 256 : ℝ) : EReal) := by
  simp [Ideal.ofBits, Ideal.ieee, -EReal.coe_mul]; norm_num

/-- The word `0xBB800000` denotes `-2⁻⁸`. -/
theorem word_neg_gamma : Ideal.ofBits .f32 0xBB800000#32 = ((-(1 / 256) : ℝ) : EReal) := by
  simp [Ideal.ofBits, Ideal.ieee, -EReal.coe_mul]; norm_num

/-- Negating `2⁻⁸` gives the word the other program spells directly. -/
theorem neg_word_gamma : -(Ideal.ofBits .f32 0x3B800000#32) = Ideal.ofBits .f32 0xBB800000#32 := by
  rw [word_gamma, word_neg_gamma, EReal.coe_neg]

end Cert.Rbf

end
-- ==== Proof.RefValue.lean ====
/-
  The reference program computes the layer.

  Read one operation at a time, entry `(b, j)` of the reference's result is the exponential of `-(2⁻⁸)` times the clipped
  squared distance, where each squared length arrives as `0 + ∑ k` (a sum started from the zero word) and the inner
  product as the sum over the contracted axis of `x (b, k) · l (j, k)`. Dropping the two zero summands and replacing
  the negated `2⁻⁸` by its word gives the specification's entry.
-/
import proofs.«143463_j58128087384571_1_alg».proof.Proof.Gen.ReferenceIdeal.Read
import proofs.«143463_j58128087384571_1_alg».proof.Proof.Spec

noncomputable section

namespace Cert.Rbf.Ref

open Idealize.ShloMosaic Idealize.ShloMosaic.ValueIdx
open Cert.ReferenceIdeal Cert.ReferenceIdeal.Gen Cert.ReferenceIdeal.Read

/-- Through the two broadcasts and the row sum, entry `(b, j)` reads the points at row `b`, column `k`. -/
theorem idx_points_sq (b : Fin 8192) (j : Fin 2048) (k : Fin 256) :
    idx_main_v1 (idx_main_v2 (idx_main_v7 (ix2 b j))) k = ix2 b k :=
  funext fun a => Fin.ext (by match a with | ⟨0, _⟩ => rfl | ⟨1, _⟩ => rfl)

/-- Through the two broadcasts and the row sum, entry `(b, j)` reads the landmarks at row `j`, column `k`. -/
theorem idx_landmarks_sq (b : Fin 8192) (j : Fin 2048) (k : Fin 256) :
    idx_main_v4 (idx_main_v6 (idx_main_v8 (ix2 b j))) k = ix2 j k :=
  funext fun a => Fin.ext (by match a with | ⟨0, _⟩ => rfl | ⟨1, _⟩ => rfl)

/-- The product's left factor at entry `(b, j)` is the points at `(b, k)`. -/
theorem idx_dot_left (b : Fin 8192) (j : Fin 2048) (k : Fin 256) : lidx_main_v5 (ix2 b j) k = ix2 b k :=
  funext fun a => Fin.ext (by match a with | ⟨0, _⟩ => rfl | ⟨1, _⟩ => rfl)

/-- The product's right factor at entry `(b, j)` is the landmarks at `(j, k)`. -/
theorem idx_dot_right (b : Fin 8192) (j : Fin 2048) (k : Fin 256) : ridx_main_v5 (ix2 b j) k = ix2 j k :=
  funext fun a => Fin.ext (by match a with | ⟨0, _⟩ => rfl | ⟨1, _⟩ => rfl)

/-- The reference's last stage is the layer of its two arguments. -/
theorem result_is_rbf (x : (⟨S8192x256, .f32⟩ : BufTy).Contents (Elt Ideal)) (l : (⟨S2048x256, .f32⟩ : BufTy).Contents (Elt Ideal)) :
    val_main_v18 (F := Ideal) x l = rbf x l := by
  funext i
  obtain ⟨b, j, rfl⟩ : ∃ (b : Fin 8192) (j : Fin 2048), i = ix2 b j := ⟨i 0, i 1, eq_ix2 i⟩
  rw [val_main_v18_apply, val_main_v17_apply, val_main_v16_apply, val_main_v15_apply, val_main_cst_3_apply,
    val_main_v14_apply, val_main_v13_apply, val_main_cst_2_apply, val_main_v12_apply, val_main_v11_apply,
    val_main_v10_apply, val_main_cst_1_apply, val_main_v5_apply, val_main_v9_apply, val_main_v7_apply,
    val_main_v2_apply, val_main_v1_apply, val_main_cst_apply, val_main_v8_apply, val_main_v6_apply,
    val_main_v4_apply, val_main_cst_0_apply, rbf_ix2]
  simp only [val_main_v0_apply, val_main_v3_apply, idx_points_sq, idx_landmarks_sq, idx_dot_left, idx_dot_right,
    Ideal.hostUnary_exp_def, Ideal.mulf_def, Ideal.hostNegf_def, Ideal.negf_def, Ideal.ofBits_def,
    Ideal.maximumf_def, Ideal.subf_def, Ideal.addf_def, neg_word_gamma, Ideal.ofBits_zero_f32, zero_add]
  rfl

end Cert.Rbf.Ref

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Payload.lean ====
/-
  The kernel body's stored value, read at one entry.

  For a block `xb` of 1024 points and the whole landmark array `l`, the value the body stores at `(p, j)` is the
  layer's entry from `‖xb_p‖²`, `‖l_j‖²` and `⟨xb_p, l_j⟩`:
  * the points' squared lengths are a lane sum of `xb · xb`, turned into a column and spread along the rows' 2048 entries;
  * the landmarks' squared lengths are a lane sum of `l · l`, turned into a row and spread down the 1024 rows;
  * the inner products are a matrix product, into a zero accumulator, of `xb` with the transpose of `l`; the two changes
    of float format in front of it are the identity on the extended reals.
-/
import proofs.«143463_j58128087384571_1_alg».proof.Proof.Gen.KernelIdeal.Skeleton
import proofs.«143463_j58128087384571_1_alg».proof.Proof.Spec
import proofs.«143463_j58128087384571_1_alg».proof.Proof.LibDot2
import Idealize.ShloMosaic.Lib.Pipeline.Value
import Idealize.ShloMosaic.Lib.ValueLayout

noncomputable section

namespace Cert.Rbf.Body

open Idealize.ShloMosaic Idealize.ShloMosaic.ValueIdx
open Cert.KernelIdeal Cert.KernelIdeal.Gen

/-! ## Two layout steps of a column -/

/-- A vector of length `a` cast to an `[a, 1]` column reads, at `(i, u)`, the vector at `i`. -/
theorem column_of_vector {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at row `p`. -/
theorem column_broadcast {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum of squares -/

/-- The lane sum of `x · x` over the 256 columns, started from the zero word, is at row `r` the squared length of
    that row. -/
theorem lane_sum_sq {n : ℕ} (x : FVec Ideal ⟨2, ![n, 256]⟩ .f32) (h : Shape.Reduces ⟨2, ![n, 256]⟩ [1] ⟨1, ![n]⟩)
    (hφ : FKind.Formats .f32) (hacc : (0x00000000#32 : BitVec 32) = FKind.add.neutral .f32 hφ) (r : Fin n) :
    multiReduction .add [1] ⟨1, ![n]⟩ (mulf x x) 0x00000000#32 h hφ hacc (ix1 r) = rowSq x r := by
  refine (Ideal.multiReduction_add_single (mulf x x) 0x00000000#32 h hφ hacc (ix1 r)).trans ?_
  show ∑ k : Fin 256, (mulf x x) (h.lift (ix1 r) k) = ∑ k : Fin 256, x (ix2 r k) * x (ix2 r k)
  refine Finset.sum_congr rfl fun k _ => ?_
  have e : h.lift (ix1 r) k = ix2 r k :=
    funext fun a => Fin.ext (by match a with | ⟨0, _⟩ => rfl | ⟨1, _⟩ => rfl)
  rw [e]
  rfl

/-! ## The matrix product's coordinates -/

/-- The body's product contracts the left operand's columns with the right operand's rows. -/
abbrev bodyDot : DotDims S1024x256 S256x2048 S1024x2048 := dot_S1024x256_S256x2048_S1024x2048_1_0_0_1_n_n

theorem bodyDot_left_row (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl

theorem bodyDot_left_col (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q

theorem bodyDot_right_row (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q

theorem bodyDot_right_col (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-! ## The three ingredients of an entry -/

/-- The points' squared lengths, as the body spreads them over the block: at `(p, j)` the squared length of row `p`. -/
theorem points_sq_at (xb : Vec Ideal S1024x256 .f32) (p : Fin 1024) (j : Fin 2048) :
    broadcastTo S1024x2048
        (shapeCast S1024x1 (multiReduction (F := Ideal) .add [1] S1024 (mulf (F := Ideal) xb xb) 0x00000000#32 Facts₀.reduces_S1024x256_S1024 (.inl rfl) rfl)
          Facts₀.shapeCasts_S1024_S1024x1)
        Facts₀.broadcasts_S1024x1_S1024x2048 (ix2 p j)
      = rowSq xb p :=
  (column_broadcast _ _ p j).trans ((column_of_vector _ _ p 0).trans (lane_sum_sq xb _ _ _ p))

/-- The landmarks' squared lengths, as the body spreads them over the block: at `(p, j)` the squared length of row `j`. -/
theorem landmarks_sq_at (l : Vec Ideal S2048x256 .f32) (p : Fin 1024) (j : Fin 2048) :
    broadcastTo S1024x2048
        (shapeCast S1x2048 (multiReduction (F := Ideal) .add [1] S2048 (mulf (F := Ideal) l l) 0x00000000#32 Facts₀.reduces_S2048x256_S2048 (.inl rfl) rfl)
          Facts₀.shapeCasts_S2048_S1x2048)
        Facts₀.broadcasts_S1x2048_S1024x2048 (ix2 p j)
      = rowSq l j :=
  (broadcastTo_1b_ab_apply _ _ p j).trans ((shapeCast_a_1a_apply _ _ 0 j).trans (lane_sum_sq l _ _ _ j))

/-- The body's matrix product at `(p, j)`: the inner product of row `p` of the block with row `j` of the landmarks. -/
theorem cross_at (xb : Vec Ideal S1024x256 .f32) (l : Vec Ideal S2048x256 .f32) (p : Fin 1024) (j : Fin 2048) :
    matmul dot_S1024x256_S256x2048_S1024x2048_1_0_0_1_n_n none (truncf .bf16 xb Facts₀.bitsLt_bf16_f32)
        (transpose S256x2048 [1, 0] (truncf .bf16 l Facts₀.bitsLt_bf16_f32) Facts₀.transposes_S2048x256_p1_0_S256x2048)
        (constant (F := Ideal) S1024x2048 .f32 0x00000000#32) (ix2 p j)
      = rowDot xb l p j := by
  refine (Cert.Lib.Dot2.matmul_zero_ix2 dot_S1024x256_S256x2048_S1024x2048_1_0_0_1_n_n none rfl rfl
    bodyDot_left_row bodyDot_left_col bodyDot_right_row bodyDot_right_col _ _ p j).trans ?_
  refine Finset.sum_congr rfl fun a _ => ?_
  rw [transpose_ix2_apply]
  rfl

/-! ## The stored value -/

/-- An entry is determined by its three ingredients. -/
theorem entry_of_parts {a a' b b' c c' : EReal} (ha : a = a') (hb : b = b') (hc : c = c') :
    Ideal.exp (Ideal.ofBits .f32 0xBB800000#32 * max (a + b - Ideal.ofBits .f32 0x40000000#32 * c) (Ideal.ofBits .f32 0x00000000#32))
      = entry a' b' c' := by
  subst ha hb hc
  rw [Ideal.ofBits_zero_f32]
  rfl

/-- What the body stores at `(p, j)` of its output block. -/
theorem stored_at (xb : Vec Ideal S1024x256 .f32) (l : Vec Ideal S2048x256 .f32) (p : Fin 1024) (j : Fin 2048) :
    k0_pay1 (F := Ideal) xb l (ix2 p j) = entry (rowSq xb p) (rowSq l j) (rowDot xb l p j) := by
  unfold k0_pay1
  exact entry_of_parts (points_sq_at xb p j) (landmarks_sq_at l p j) (cross_at xb l p j)

end Cert.Rbf.Body

end
-- ==== Proof.Blocks.lean ====
/-
  From the eight row blocks to the whole result array.

  Grid point `t` stages rows `1024·t … 1024·t + 1023` of the points, the whole landmark array, and writes back the same
  rows of the result. What it writes at local position `(p, j)` is the body's stored value on that block, which is the
  layer's entry at global position `(1024·t + p, j)`: the block's row `p` is the points' row `1024·t + p`, and the
  landmark block is the landmark array itself. The eight blocks are disjoint bands of 1024 rows and together fill
  the 8192 rows, the band of row `r` being `r / 1024`; so after the run the result array is the layer of the two
  argument arrays, everywhere.
-/
import proofs.«143463_j58128087384571_1_alg».proof.Proof.Gen.KernelIdeal.Value
import proofs.«143463_j58128087384571_1_alg».proof.Proof.Payload

noncomputable section

namespace Cert.Rbf.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The three index maps over the eight grid points: the points' block and the result's block sit at the same band
    of rows, below band 8; every other block coordinate is zero. -/
theorem bands : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every band of rows is some grid point's. -/
theorem band_onto : ∀ q : Fin 8, ∃ t : Fin cfg0.N, win0_2.index t = ![q.val, 0] :=
  (by decide +kernel : ∀ q : Fin 8, ∃ t : Fin grid0.N, win0_2.index t = ![q.val, 0])

/-- An entry computed from a block of points and a copy of the landmarks is the layer's entry at the global row the
    block's row comes from. -/
theorem entry_of_block (X : (⟨2, ![8192, 256]⟩ : Shape).Idx → EReal) (Lm : (⟨2, ![2048, 256]⟩ : Shape).Idx → EReal)
    (xb : (⟨2, ![1024, 256]⟩ : Shape).Idx → EReal) (lb : (⟨2, ![2048, 256]⟩ : Shape).Idx → EReal)
    (r : Fin 8192) (p : Fin 1024) (j : Fin 2048)
    (hx : ∀ k : Fin 256, xb (ix2 p k) = X (ix2 r k)) (hl : ∀ k : Fin 256, lb (ix2 j k) = Lm (ix2 j k)) :
    entry (rowSq xb p) (rowSq lb j) (rowDot xb lb p j) = rbf X Lm (ix2 r j) := by
  rw [rbf_ix2]
  unfold rowSq rowDot
  simp only [hx, hl]

/-- WHAT POINT `t` WRITES BACK is block `t` of the layer of the two arrays as the region finds them. -/
theorem flushed_is_layer (c : Dev nD) (t : Fin cfg0.N) :
    (dats m 0 c).flushed 2 t
      = ((cfg0.win 2).blk t).view.read (Elt Ideal) (rbf (V m c main_arg0) (V m c main_arg1)) := by
  rw [Cert.KernelIdeal.Value.flushed2]
  unfold out0_2
  rw [View.canon_unit_zero origin]
  simp only [View.ld_unit_zero (S := S1024x256) origin, View.ld_unit_zero (S := S2048x256) origin]
  obtain ⟨e0, e1, e2, e3, e4, e5⟩ := bands t
  funext y
  obtain ⟨p, j, rfl⟩ : ∃ (p : Fin 1024) (j : Fin 2048), y = ix2 p j := ⟨y 0, y 1, eq_ix2 y⟩
  have hr : win0_2.index t (0 : Fin 2) * 1024 + p.val < 8192 := by have := p.isLt; omega
  show k0_pay1 (F := Ideal) (iblk m c 0 t) (iblk m c 1 t) (ix2 p j)
    = rbf (V m c main_arg0) (V m c main_arg1) (((cfg0.win 2).blk t).view.emb (ix2 p j))
  have hout : ((cfg0.win 2).blk t).view.emb (ix2 p j)
      = ix2 (⟨win0_2.index t (0 : Fin 2) * 1024 + p.val, hr⟩ : Fin 8192) j := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 2048 + 1 * j.val = j.val; omega
  rw [hout]
  refine (Cert.Rbf.Body.stored_at (iblk m c 0 t) (iblk m c 1 t) p j).trans ?_
  refine entry_of_block (V m c main_arg0) (V m c main_arg1) (iblk m c 0 t) (iblk m c 1 t) _ p j (fun k => ?_) (fun k => ?_)
  · show V m c main_arg0 (((cfg0.win 0).blk t).view.emb (ix2 p k)) = V m c main_arg0 (ix2 _ k)
    refine congrArg (V m c main_arg0) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 256 + 1 * k.val = k.val; omega
  · show V m c main_arg1 (((cfg0.win 1).blk t).view.emb (ix2 j k)) = V m c main_arg1 (ix2 j k)
    refine congrArg (V m c main_arg1) (funext fun a => Fin.ext ?_)
    match a with
    | ⟨0, _⟩ => show win0_1.index t (0 : Fin 2) * 2048 + 1 * j.val = j.val; omega
    | ⟨1, _⟩ => show win0_1.index t (1 : Fin 2) * 256 + 1 * k.val = k.val; omega

/-- An index of the result array is in point `t`'s block iff each coordinate is in the block's range on its axis. -/
theorem mem_band (t : Fin cfg0.N) (i : S8192x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- Every index of the result array is in some point's block: row `r` is in band `r / 1024`. -/
theorem covered (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := band_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_band]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- THE RESULT ARRAY after the run is the layer of the two argument arrays. -/
theorem final_is_layer (c : Dev nD) :
    (dats m 0 c).arrAt 2 cfg0.N
      = rbf (m ((c : Thread nD τ).loc main_arg0)) (m ((c : Thread nD τ).loc main_arg1)) :=
  (dats m 0 c).arrAt_eq_of_cover 2 (rbf (V m c main_arg0) (V m c main_arg1))
    (fun t _ => flushed_is_layer m c t) covered

/-- The kernel's run: every weakly fair execution ends with the result array at the layer of the arguments, and the
    arguments as they were. -/
theorem run : θ_run defs (onTc (τ := τ) (main (F := Ideal))) ⟨m, fun _ => 0, ρ⟩ fun r => ∀ c : Dev nD,
      r.2.mem ((c : Thread nD τ).loc main_v0)
        = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_is_layer m c), (h c).2⟩)
    (Cert.KernelIdeal.Value.run_blocks m ρ)

end Cert.Rbf.Blocks

end
-- ==== Proof.lean ====
/-
  A radial-basis layer computed block by block against its whole-array formula.

  Both programs take points `x : [8192, 256]` and landmarks `l : [2048, 256]` and return, at `(b, j)`,
  `exp (-(2⁻⁸) · max (‖x_b‖² + ‖l_j‖² - 2 · ⟨x_b, l_j⟩, 0))`. The kernel runs over eight bands of 1024 rows: for each it
  sums squares along the lanes, forms the inner products by a matrix product with the transposed landmarks into a zero
  accumulator (the narrowing of both operands in front of it is the identity on the extended reals), and stores the band.
  The reference computes the same three ingredients over the whole arrays by two row sums started from zero and one
  contraction, and spells the scale as the negation of `2⁻⁸` where the kernel spells the word `-2⁻⁸`.

  On the extended reals the two results are one function, index by index, and no law beyond `0 + s = s` and the value of
  that one negated word is needed: the sums range over the same 256 terms in both, and every other operation is
  applied to equal arguments in the same order. So finiteness of the inputs is never used.

  * `Spec`: the layer as a function of the two arrays, and the negated word.
  * `RefValue`: the reference's last stage is that function.
  * `Payload`: what the kernel body stores at `(p, j)` of a band is the entry from that band's row `p` and landmark row `j`.
  * `Blocks`: band `t`, local row `p` is global row `1024·t + p`; the eight bands fill the array; the kernel's run.
  * `LibDot2`: a rank-2 matrix product into a zero accumulator, read at an entry, is the sum over the contracted axis.
  Here: the three programs terminate with their arguments unchanged, the idealization rewrote nothing, and the two
  idealized programs end at the same array.
-/
import proofs.«143463_j58128087384571_1_alg».proof.Defs
import proofs.«143463_j58128087384571_1_alg».proof.Proof.Gen.Kernel
import proofs.«143463_j58128087384571_1_alg».proof.Proof.Gen.Kernel.Skeleton
import proofs.«143463_j58128087384571_1_alg».proof.Proof.Gen.Kernel.Launch
import proofs.«143463_j58128087384571_1_alg».proof.Proof.Gen.Kernel.Points
import proofs.«143463_j58128087384571_1_alg».proof.Proof.Gen.Kernel.Frame
import proofs.«143463_j58128087384571_1_alg».proof.Proof.Gen.KernelIdeal
import proofs.«143463_j58128087384571_1_alg».proof.Proof.Gen.KernelIdeal.Skeleton
import proofs.«143463_j58128087384571_1_alg».proof.Proof.Gen.KernelIdeal.Launch
import proofs.«143463_j58128087384571_1_alg».proof.Proof.Gen.KernelIdeal.Points
import proofs.«143463_j58128087384571_1_alg».proof.Proof.Gen.KernelIdeal.Frame
import proofs.«143463_j58128087384571_1_alg».proof.Proof.Gen.ReferenceIdeal
import proofs.«143463_j58128087384571_1_alg».proof.Proof.Gen.Pre_finite_inputs
import proofs.«143463_j58128087384571_1_alg».proof.Proof.Gen.KernelIdeal.Value
import proofs.«143463_j58128087384571_1_alg».proof.Proof.Gen.ReferenceIdeal.Run
import proofs.«143463_j58128087384571_1_alg».proof.Proof.Gen.ReferenceIdeal.Read
import proofs.«143463_j58128087384571_1_alg».proof.Proof.RefValue
import proofs.«143463_j58128087384571_1_alg».proof.Proof.Blocks
import Idealize.ShloMosaic.Adequacy
import Idealize.ShloMosaic.Init

noncomputable section

namespace Cert.Proof

open Idealize.ShloMosaic Idealize.ShloMosaic.TcCoe Idealize.SL.Sem

/-- The kernel, read at words, terminates and leaves both arguments as they were. -/
theorem frame_kernel : Cert.frame_Kernel := fun m ρ _ => Cert.Kernel.Gen.frame m ρ

/-- The kernel, read on the extended reals, terminates and leaves both arguments as they were. -/
theorem frame_kernel_ideal : Cert.frame_KernelIdeal := fun m ρ _ => Cert.KernelIdeal.Gen.frame m ρ

/-- The reference terminates and leaves both arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the points and the landmarks, the kernel ends with its result array at the layer of
    the two arrays (eight bands, each the layer's rows) and the reference ends with its last stage, which is the same
    function of the same arrays. -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.Rbf.Ref.result_is_rbf _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
